-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩

abbrev nBuf : Space → Nat
  | .hbm => 65
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x128, .bf16⟩
  | .hbm, ⟨45, _⟩ => ⟨S128x128, .bf16⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .local _ .vmem, ⟨0, _⟩ => ⟨S10000x128, .bf16⟩
  | .local _ .vmem, ⟨1, _⟩ => ⟨S10000x128, .bf16⟩
  | .local _ .vmem, ⟨2, _⟩ => ⟨S128x128, .bf16⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .bf16 = 32 ∨ (Rect.block (s := S100000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_v30) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x128, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S1700000x1, .f32⟩
  | .hbm, ⟨55, _⟩ => ⟨S1700000x128, .f32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.XwBlocks.lean ====
/-
  The first region (a row block of 10000 rows of `x` times the whole 128 × 128 weight, into a zero accumulator), read
  as ONE function of the two arrays the region finds: at every index `(r, j)` the output is the sum over `k` of
  `x (r, k) · w (k, j)`. At the ideal instance the kernel's matrix product into a zero accumulator IS that sum (the
  accumulator's zero is the additive identity). Grid point `t` loads rows `10000·t … 10000·t + 9999` of `x` and all of
  `w`, and writes the same rows of the output; the ten blocks tile the 100000 rows, so after the region the output
  array is that product everywhere.
-/
import proofs.«138980_j82824149336364_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Xw

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Entry `(i 0, k)`: row `i 0` of the left factor at the contracted position `k`. -/
abbrev inRow {n : Nat} (i : (⟨2, ![n, 128]⟩ : Shape).Idx) (k : Fin 128) : (⟨2, ![n, 128]⟩ : Shape).Idx := fun a => match a with
  | ⟨0, _⟩ => ⟨(i 0).val, (i 0).isLt⟩
  | ⟨1, _⟩ => ⟨k.val, k.isLt⟩
/-- Entry `(k, i 1)`: column `i 1` of the weight at the contracted position `k`. -/
abbrev inCol {n : Nat} (i : (⟨2, ![n, 128]⟩ : Shape).Idx) (k : Fin 128) : S128x128.Idx := fun a => match a with
  | ⟨0, _⟩ => ⟨k.val, k.isLt⟩
  | ⟨1, _⟩ => ⟨(i 1).val, (i 1).isLt⟩

/-- The region's result as one function of the left factor `x` and the weight `w`: the matrix product, entry by entry. -/
def matProd (x : FVec Ideal S100000x128 .bf16) (w : FVec Ideal S128x128 .bf16) : FVec Ideal S100000x128 .f32 :=
  fun i => ∑ k : Fin 128, x (inRow i k) * w (inCol i k)

/-! ### The contraction's index maps, axis by axis -/

theorem lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The body's arithmetic at an index of the block: the sum over the contracted position of the loaded rows' entry
    times the weight's (the two same-shape casts are the identity; the zero accumulator adds nothing). -/
theorem pay_apply (x0 : FVec Ideal S10000x128 .bf16) (x1 : FVec Ideal S128x128 .bf16) (y : S10000x128.Idx) :
    k0_pay1 (F := Ideal) x0 x1 y = ∑ k : Fin 128, x0 (inRow y k) * x1 (inCol y k) := by
  unfold k0_pay1
  show FloatOps.matmul dot_S10000x128_S128x128_S10000x128_1_0_0_1_n_n none (shapeCast S10000x128 x0 shapeCasts_S10000x128_S10000x128)
    (shapeCast S128x128 x1 shapeCasts_S128x128_S128x128) (constant S10000x128 .f32 0x00000000#32) y = _
  rw [shapeCast_self, shapeCast_self, Ideal.matmul_constant_zero_apply,
    ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx y ((ValueIdx.contrEquiv1 dot_S10000x128_S128x128_S10000x128_1_0_0_1_n_n 128 rfl rfl).symm k) = inRow y k := funext fun a => Fin.ext (by
    match a with
    | ⟨0, _⟩ => exact lhs_0 _ _
    | ⟨1, _⟩ => exact (lhs_1 _ _).trans hk)
  have er : dot_S10000x128_S128x128_S10000x128_1_0_0_1_n_n.rhsIdx y ((ValueIdx.contrEquiv1 dot_S10000x128_S128x128_S10000x128_1_0_0_1_n_n 128 rfl rfl).symm k) = inCol y k := funext fun a => Fin.ext (by
    match a with
    | ⟨0, _⟩ => exact (rhs_0 _ _).trans hk
    | ⟨1, _⟩ => exact rhs_1 _ _)
  rw [el, er]

/-- The left factor and the weight as the region finds them, at their literal types (so that their entries multiply). -/
abbrev leftArr (c : Dev nD) : FVec Ideal S100000x128 .bf16 := V c main_v30
abbrev weightArr (c : Dev nD) : FVec Ideal S128x128 .bf16 := V c main_v31

/-- The printed index maps over the ten grid points: the input rows move with the output rows, block `t` is rows
    `10000·t …`, every block spans all 128 columns, and the weight window stays at its one block. -/
theorem idx_facts : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) = t.val :=
  (by decide +kernel : ∀ t : Fin grid0.N, _)

/-- What point `t` writes back is block `t` of the product of the two arrays as the region finds them. -/
theorem flushed_eq (c : Dev nD) (t : Fin cfg0.N) :
    (dat0 V c).flushed 2 t = ((cfg0.win 2).blk t).view.read (Elt Ideal) (matProd (leftArr V c) (weightArr V c)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x128) zero_offsets]
  obtain ⟨e0, e1, e2, e3, e4, e5⟩ := idx_facts t
  funext j
  refine (pay_apply (iblk0 V c 0 t) (iblk0 V c 1 t) j).trans ?_
  show ∑ k : Fin 128, leftArr V c (((cfg0.win 0).blk t).view.emb (inRow j k)) * weightArr V c (((cfg0.win 1).blk t).view.emb (inCol j k))
    = ∑ k : Fin 128, leftArr V c (inRow (((cfg0.win 2).blk t).view.emb j) k) * weightArr V c (inCol (((cfg0.win 2).blk t).view.emb j) k)
  refine Finset.sum_congr rfl fun k _ => ?_
  have h0 : ((cfg0.win 0).blk t).view.emb (inRow j k) = inRow (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (inCol j k) = inCol (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v32).slice (win0_2.rect t)).set ↔ _
  rw [View.set_slice_whole, Rect.mem_set_unit]
  exact Iff.rfl

/-- Every index of the output array is in the block of the point that owns its row: point `r / 10000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN := N_0
  let t : Fin cfg0.N := ⟨(i 0).val / 10000, by show (i 0).val / 10000 < grid0.N; omega⟩
  obtain ⟨e0, e1, e2, e3, e4, e5⟩ := idx_facts t
  have e5' : win0_2.index t (0 : Fin 2) = (i 0).val / 10000 := e5
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output array after the region: the product of the left factor and the weight, everywhere. -/
theorem final (c : Dev nD) : (dat0 V c).arrAt 2 cfg0.N = matProd (leftArr V c) (weightArr V c) :=
  (dat0 V c).arrAt_eq_of_cover 2 _ (fun t _ => flushed_eq V c t) cover

end Cert.KernelIdeal.Xw

end
-- ==== Proof.BiasReluBlocks.lean ====
/-
  The second region (bias add, then the maximum with zero, on row blocks of 10000 rows), read as ONE function of the
  two arrays the region finds: at every index `(r, j)` the output is `max (a (r, j) + b (0, j)) 0`, with `a` the
  aggregated features and `b` the bias as a one-row matrix. Grid point `t` loads rows `10000·t … 10000·t + 9999` of `a`
  and the whole row `b`, and writes the same rows of the output; the ten blocks tile the 100000 rows, so after the
  region the output array is that function everywhere.
-/
import proofs.«138980_j82824149336364_1_alg».proof.Proof.Gen.KernelIdeal.Frame
import Idealize.ShloMosaic.Lib.Pipeline.Value
import Idealize.ShloMosaic.Lib.ValueIdx

set_option maxRecDepth 16384

noncomputable section

namespace Cert.KernelIdeal.BiasRelu

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- The entry of the one-row bias matrix that sits under column `i 1`. -/
abbrev underCol {n : Nat} (i : (⟨2, ![n, 128]⟩ : Shape).Idx) : S1x128.Idx := fun a => match a with
  | ⟨0, _⟩ => ⟨0, Nat.one_pos⟩
  | ⟨1, _⟩ => ⟨(i 1).val, (i 1).isLt⟩

/-- The region's result as one function of the aggregated array `a` and the bias row `b`: `max (a + b) 0`, the bias
    repeated down the rows. -/
def biasRelu (a : S100000x128.Idx → Elt F .f32) (b : S1x128.Idx → Elt F .f32) : S100000x128.Idx → Elt F .f32 :=
  fun i => FloatOps.maximumf (FloatOps.addf (a i) (b (underCol i))) (Scalar.ofBits .f32 0x00000000#32)

/-- The body's arithmetic at an index of the block: the loaded rows plus the bias row's entry of that column, then the
    maximum with zero (the two same-shape casts are the identity, the row broadcast reads row 0). -/
theorem pay_apply (x0 : Vec F S10000x128 .f32) (x1 : Vec F S1x128 .f32) (y : S10000x128.Idx) :
    k1_pay1 x0 x1 y = FloatOps.maximumf (FloatOps.addf (x0 y) (x1 (underCol y))) (Scalar.ofBits .f32 0x00000000#32) := by
  unfold k1_pay1
  show FloatOps.maximumf (FloatOps.addf (shapeCast S10000x128 x0 shapeCasts_S10000x128_S10000x128 y)
    (broadcastTo S10000x128 (shapeCast S1x128 x1 shapeCasts_S1x128_S1x128) broadcasts_S1x128_S10000x128 y)) _ = _
  rw [shapeCast_self, shapeCast_self, broadcastTo_apply x1 broadcasts_S1x128_S10000x128 y (underCol y) (fun a => match a with
    | ⟨0, _⟩ => by show (0 : Nat) = if (1 : Nat) = 1 then 0 else _; rw [if_pos rfl]
    | ⟨1, _⟩ => by show (y 1).val = if (128 : Nat) = 1 then 0 else (y 1).val; rw [if_neg (by decide)])]
  rfl

/-- The printed index maps over the ten grid points: the input rows move with the output rows, block `t` is rows
    `10000·t …`, every block spans all 128 columns, and the bias window stays at its one block. -/
theorem idx_facts : ∀ t : Fin cfg1.N, win1_0.index t (0 : Fin 2) = win1_2.index t (0 : Fin 2)
    ∧ win1_0.index t (1 : Fin 2) = 0 ∧ win1_2.index t (1 : Fin 2) = 0
    ∧ win1_1.index t (0 : Fin 2) = 0 ∧ win1_1.index t (1 : Fin 2) = 0
    ∧ win1_2.index t (0 : Fin 2) = t.val :=
  (by decide +kernel : ∀ t : Fin grid1.N, _)

/-- What point `t` writes back is block `t` of `biasRelu` of the two arrays as the region finds them. -/
theorem flushed_eq (c : Dev nD) (t : Fin cfg1.N) :
    (dat1 V c).flushed 2 t = ((cfg1.win 2).blk t).view.read (Elt F) (biasRelu (V c main_v45) (V c main_v46)) := by
  show (cfg1.win 2).cut (grid1.coords t) ((dat1 V c).after 2 t) = _
  rw [after1_2]
  unfold out1_2
  rw [View.canon_unit_zero zero_offsets]
  simp only [View.ld_unit_zero (S := S10000x128) zero_offsets, View.ld_unit_zero (S := S1x128) zero_offsets]
  obtain ⟨e0, e1, e2, e3, e4, e5⟩ := idx_facts t
  funext j
  refine (pay_apply (iblk1 V c 0 t) (iblk1 V c 1 t) j).trans ?_
  show FloatOps.maximumf (FloatOps.addf (V c main_v45 (((cfg1.win 0).blk t).view.emb j)) (V c main_v46 (((cfg1.win 1).blk t).view.emb (underCol j)))) _
    = FloatOps.maximumf (FloatOps.addf (V c main_v45 (((cfg1.win 2).blk t).view.emb j)) (V c main_v46 (underCol (((cfg1.win 2).blk t).view.emb j)))) _
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (underCol j) = underCol (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  rw [h0, h1]

/-- An index of the output array is in point `t`'s block iff each coordinate is in the block's range on its axis. -/
theorem mem_blk (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v47).slice (win1_2.rect t)).set ↔ _
  rw [View.set_slice_whole, Rect.mem_set_unit]
  exact Iff.rfl

/-- Every index of the output array is in the block of the point that owns its row: point `r / 10000`. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN := N_1
  let t : Fin cfg1.N := ⟨(i 0).val / 10000, by show (i 0).val / 10000 < grid1.N; omega⟩
  obtain ⟨e0, e1, e2, e3, e4, e5⟩ := idx_facts t
  have e5' : win1_2.index t (0 : Fin 2) = (i 0).val / 10000 := e5
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The output array after the region: `biasRelu` of the aggregated array and the bias row, everywhere. -/
theorem final (c : Dev nD) : (dat1 V c).arrAt 2 cfg1.N = biasRelu (V c main_v45) (V c main_v46) :=
  (dat1 V c).arrAt_eq_of_cover 2 _ (fun t _ => flushed_eq V c t) cover

end Cert.KernelIdeal.BiasRelu

end
-- ==== Proof.HostChain.lean ====
/-
  The host operations around the two regions, named as functions of the arrays they read, and what each segment
  boundary of the run holds in terms of the launch memory.
  From the edge list `e` (row 0 the sources, row 1 the destinations) the program appends one self loop per node
  (`srcOf`, `dstOf`); counts each node's incoming edges by a scatter-add of ones (`degOf`); takes the inverse square
  root of the positive counts, zero elsewhere (`dinvOf`); scales edge `k` by `dinv (src k) · dinv (dst k)` (`normOf`),
  a negative index first wrapped by the node count (`wrapIdx`); and, given the transformed features `xw`, gathers
  row `src k`, scales it, and scatter-adds it into row `dst k` (`aggOf`). None of these is opened here: the value
  claim only needs that both programs apply the same functions to equal arguments.
-/
import proofs.«138980_j82824149336364_1_alg».proof.Proof.Gen.KernelIdeal.Frame
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable {F : FTy → Type} [FloatOps F]

/-- The edges' sources followed by one self loop per node. -/
def srcOf (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edges' destinations followed by one self loop per node. -/
def dstOf (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative node index wrapped by the node count, as array indexing does. -/
def wrapIdx (v : (⟨S1700000, .i32⟩ : BufTy).Contents (Elt F)) : (⟨S1700000, .i32⟩ : BufTy).Contents (Elt F) :=
  select (cmpi .slt v (broadcastInDim S1700000 ![] bcast_S_S1700000 (constantI S_ 32 0#32))) (addi v (broadcastInDim S1700000 ![] bcast_S_S1700000 (constantI S_ 32 100000#32))) v

/-- Each node's number of incoming edges, self loop included: ones scatter-added at the destinations. -/
def degOf (dst : (⟨S1700000, .i32⟩ : BufTy).Contents (Elt F)) : FVec F S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32))

/-- The inverse square root of a positive degree, zero for a degree that is not positive. -/
def dinvOf (dst : (⟨S1700000, .i32⟩ : BufTy).Contents (Elt F)) : FVec F S100000 .f32 :=
  select (cmpf (F := F) .ogt (degOf dst) (broadcastInDim S100000 ![] bcast_S_S100000 (constant S_ .f32 0x00000000#32))) (Host.rsqrt (degOf dst)) (broadcastInDim S100000 ![] bcast_S_S100000 (id (constant S_ .f32 0x00000000#32)))

/-- Edge `k`'s weight: `dinv (src k) · dinv (dst k)`. -/
def normOf (src dst : (⟨S1700000, .i32⟩ : BufTy).Contents (Elt F)) : FVec F S1700000 .f32 :=
  mulf (Host.gather gather_S100000_S1700000x1_S1700000_n_0_n_n_0_1_1 (dinvOf dst) (broadcastInDim S1700000x1 ![0] bcast_S1700000_S1700000x1_0 (wrapIdx src))) (Host.gather gather_S100000_S1700000x1_S1700000_n_0_n_n_0_1_1 (dinvOf dst) (broadcastInDim S1700000x1 ![0] bcast_S1700000_S1700000x1_0 (wrapIdx dst)))

/-- The aggregation: row `src k` of `xw`, scaled by edge `k`'s weight, scatter-added into row `dst k` of a zero array. -/
def aggOf (xw : FVec F S100000x128 .f32) (src dst : (⟨S1700000, .i32⟩ : BufTy).Contents (Elt F)) (norm : FVec F S1700000 .f32) : FVec F S100000x128 .f32 :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 dst) (mulf (Host.gather gather_S100000x128_S1700000x1_S1700000x128_1_0_n_n_0_1_1128 xw (broadcastInDim S1700000x1 ![0] bcast_S1700000_S1700000x1_0 (wrapIdx src))) (broadcastInDim S1700000x128 ![0, 1] bcast_S1700000x1_S1700000x128_0_1 (broadcastInDim S1700000x1 ![0] bcast_S1700000_S1700000x1_0 norm)))

/-- The bias vector as a one-row matrix. -/
def rowOf (b : FVec F S128 .f32) : FVec F S1x128 .f32 := shapeCast S1x128 b shapeCasts_S128_S1x128

variable (m : (ℓ : Loc nD τ sig) → Buf (Elt F) ℓ) (ρ : Dev nD → PrngReg)

/-! ## Region 0's entry: what the host operations before it leave -/

/-- The left factor the first region stages: `x` with its format changed. -/
theorem entry0_left (c : Dev nD) :
    W3 m ρ c (Proc.devRef .tc main_v30) = truncf .bf16 (m ((c : Thread nD τ).loc main_arg0)) bitsLt_bf16_f32 := by
  show StableHlo.after hostOps0_2 (StableHlo.after hostOps0_1 (StableHlo.after hostOps0 (W0 m ρ c))) (Proc.devRef .tc main_v30) = _
  dsimp only [hostOps0, hostOps0_1, hostOps0_2]
  after_results

/-- The weight the first region stages: `W` with its format changed. -/
theorem entry0_weight (c : Dev nD) :
    W3 m ρ c (Proc.devRef .tc main_v31) = truncf .bf16 (m ((c : Thread nD τ).loc main_arg2)) bitsLt_bf16_f32 := by
  show StableHlo.after hostOps0_2 (StableHlo.after hostOps0_1 (StableHlo.after hostOps0 (W0 m ρ c))) (Proc.devRef .tc main_v31) = _
  dsimp only [hostOps0, hostOps0_1, hostOps0_2]
  after_results

/-- The sources with self loops, as region 0 finds them. -/
theorem entry0_src (c : Dev nD) :
    W3 m ρ c (Proc.devRef .tc main_v3) = srcOf (m ((c : Thread nD τ).loc main_arg1)) := by
  show StableHlo.after hostOps0_2 (StableHlo.after hostOps0_1 (StableHlo.after hostOps0 (W0 m ρ c))) (Proc.devRef .tc main_v3) = _
  dsimp only [hostOps0, hostOps0_1, hostOps0_2]
  after_results
  rfl

/-- The destinations with self loops, as region 0 finds them. -/
theorem entry0_dst (c : Dev nD) :
    W3 m ρ c (Proc.devRef .tc main_v6) = dstOf (m ((c : Thread nD τ).loc main_arg1)) := by
  show StableHlo.after hostOps0_2 (StableHlo.after hostOps0_1 (StableHlo.after hostOps0 (W0 m ρ c))) (Proc.devRef .tc main_v6) = _
  dsimp only [hostOps0, hostOps0_1, hostOps0_2]
  after_results
  rfl

/-- The bias, untouched by the host operations before region 0. -/
theorem entry0_bias (c : Dev nD) :
    W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  dsimp only [hostOps0, hostOps0_1, hostOps0_2]
  after_results

set_option maxHeartbeats 4000000 in
/-- The edge weights, as region 0 finds them. -/
theorem entry0_norm (c : Dev nD) :
    W3 m ρ c (Proc.devRef .tc main_v29) = normOf (srcOf (m ((c : Thread nD τ).loc main_arg1))) (dstOf (m ((c : Thread nD τ).loc main_arg1))) := by
  show StableHlo.after hostOps0_2 (StableHlo.after hostOps0_1 (StableHlo.after hostOps0 (W0 m ρ c))) (Proc.devRef .tc main_v29) = _
  dsimp only [hostOps0, hostOps0_1, hostOps0_2]
  after_results
  rfl

/-! ## Region 1's entry: the host operations between the regions, over region 0's exit contents -/

set_option maxHeartbeats 4000000 in
/-- The aggregated features region 1 stages: `aggOf` of what region 0 left in its output and of the index and weight
    arrays as they stand at its exit. -/
theorem entry1_agg (c : Dev nD) :
    W5 m ρ c (Proc.devRef .tc main_v45) = aggOf (W4 m ρ c (Proc.devRef .tc main_v32)) (W4 m ρ c (Proc.devRef .tc main_v3)) (W4 m ρ c (Proc.devRef .tc main_v6)) (W4 m ρ c (Proc.devRef .tc main_v29)) := by
  show StableHlo.after hostOps1 (W4 m ρ c) (Proc.devRef .tc main_v45) = _
  dsimp only [hostOps1]
  after_results
  rfl

/-- The bias row region 1 stages: the bias vector as a one-row matrix. -/
theorem entry1_bias (c : Dev nD) :
    W5 m ρ c (Proc.devRef .tc main_v46) = rowOf (W4 m ρ c (Proc.devRef .tc main_arg3)) := by
  show StableHlo.after hostOps1 (W4 m ρ c) (Proc.devRef .tc main_v46) = _
  dsimp only [hostOps1]
  after_results
  rfl

end Cert.KernelIdeal.Chain

end
-- ==== Proof.RefTerm.lean ====
/-
  The reference's result term, read in two layers. Inside: the aggregation `aggR xw e` — the gather of the rows of
  `xw` at the edges' sources, scaled by the symmetric degree weights, scatter-added at the edges' destinations — as a
  function of the transformed features `xw` and the edge list `e` alone. Outside: the bias added to every row and the
  maximum with zero. The reference's composed term IS these two layers over `xw = x · W`; nothing is computed here,
  the term is only cut at the product.
-/
import proofs.«138980_j82824149336364_1_alg».proof.Proof.RefRun

noncomputable section

namespace Cert.ReferenceIdeal.Term

open Cert.ReferenceIdeal Cert.ReferenceIdeal.Gen Idealize.ShloMosaic Idealize.ShloMosaic.TcCoe Idealize.SL.Sem

variable {F : FTy → Type} [FloatOps F]

set_option maxRecDepth 8192 in
/-- The aggregation over all edges and self loops, of any feature array `xw` and edge list `e`. -/
def aggR (xw : FVec F S100000x128 .f32) (e : (⟨S2x1600000, .i32⟩ : BufTy).Contents (Elt F)) : FVec F S100000x128 .f32 :=
  (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (mulf (Host.gather gather_S100000x128_S1700000x1_S1700000x128_1_0_n_n_0_1_1128 xw (broadcastInDim S1700000x1 ![0] bcast_S1700000_S1700000x1_0 (select (cmpi .slt (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)))) (broadcastInDim S1700000x128 ![0, 1] bcast_S1700000x1_S1700000x128_0_1 (broadcastInDim S1700000x1 ![0] bcast_S1700000_S1700000x1_0 (mulf (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32)))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)))) (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32)))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)))))))))

set_option maxRecDepth 8192 in
/-- The reference's result is the bias added to the aggregation of `x · W`, then the maximum with zero. -/
theorem res_eq (m : (ℓ : Loc nD τ sig) → Buf (Elt F) ℓ) (c : Dev nD) :
    Value.res_main_v47 m c
      = maximumf (addf (aggR (Host.dotGeneral dot_S100000x128_S128x128_S100000x128_1_0_0_1_n_n none (m ((c.tc : Thread nD τ).loc main_arg0)) (m ((c.tc : Thread nD τ).loc main_arg2))) (m ((c.tc : Thread nD τ).loc main_arg1)))
          (broadcastInDim S100000x128 ![0, 1] bcast_S1x128_S100000x128_0_1 (broadcastInDim S1x128 ![1] bcast_S128_S1x128_1 (m ((c.tc : Thread nD τ).loc main_arg3)))))
          (broadcastInDim S100000x128 ![] bcast_S_S100000x128 (constant (F := F) S_ .f32 0x00000000#32)) := by
  unfold Value.res_main_v47 aggR
  rfl

end Cert.ReferenceIdeal.Term

end
-- ==== Proof.Bridge.lean ====
/-
  The two programs compute one function. Both form the same edge arrays and degree weights from the edge list and
  apply the same aggregation to the transformed features; they differ in how `x · W` is formed and in where the bias and
  the maximum with zero are applied:
  * the kernel's first region forms `x · W` block by block from copies of `x` and `W` whose format was changed, the
    reference by one product of the arrays themselves: at the ideal instance a change of format is the identity and
    both products are the sum over `k` of `x (r, k) · W (k, j)`;
  * the kernel's second region adds the bias row to each row block and takes the maximum with zero, the reference does
    so on whole arrays after broadcasting the bias: entry by entry both are `max (agg (r, j) + b j) 0`.
  In between, both apply the same gather, scaling and scatter-add (compared as whole functions, never opened).
-/
import proofs.«138980_j82824149336364_1_alg».proof.Proof.KernelRun
import proofs.«138980_j82824149336364_1_alg».proof.Proof.XwBlocks
import proofs.«138980_j82824149336364_1_alg».proof.Proof.BiasReluBlocks
import proofs.«138980_j82824149336364_1_alg».proof.Proof.HostChain
import proofs.«138980_j82824149336364_1_alg».proof.Proof.RefTerm
import Idealize.ShloMosaic.Lib.Pipeline.Value
import Idealize.ShloMosaic.Lib.ValueIdx
import Idealize.ShloMosaic.PureOps.Ideal.Laws

set_option maxRecDepth 16384

noncomputable section

namespace Cert.Proof.Bridge

open Idealize.ShloMosaic Idealize.ShloMosaic.TcCoe Idealize.SL.Sem

/-! ## The shared aggregation -/

set_option maxHeartbeats 2000000 in
/-- The reference's aggregation of a feature array over an edge list is the kernel program's: the same operations in
    the same order on the same arrays (for any float family: nothing is computed). -/
theorem agg_same {F : FTy → Type} [FloatOps F] (xw : FVec F Cert.ReferenceIdeal.S100000x128 .f32) (e : (⟨Cert.ReferenceIdeal.S2x1600000, .i32⟩ : BufTy).Contents (Elt F)) :
    Cert.ReferenceIdeal.Term.aggR xw e
      = Cert.KernelIdeal.Chain.aggOf xw (Cert.KernelIdeal.Chain.srcOf e) (Cert.KernelIdeal.Chain.dstOf e) (Cert.KernelIdeal.Chain.normOf (Cert.KernelIdeal.Chain.srcOf e) (Cert.KernelIdeal.Chain.dstOf e)) := by
  unfold Cert.ReferenceIdeal.Term.aggR Cert.KernelIdeal.Chain.aggOf Cert.KernelIdeal.Chain.normOf Cert.KernelIdeal.Chain.dinvOf Cert.KernelIdeal.Chain.degOf Cert.KernelIdeal.Chain.wrapIdx Cert.KernelIdeal.Chain.srcOf Cert.KernelIdeal.Chain.dstOf
  rfl

/-! ## The product `x · W` -/

theorem lhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem lhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The reference's one product of `x` and `W` is, entry by entry, the sum the kernel's blocks hold, formed from the
    arrays with their format changed (the identity at the ideal instance). -/
theorem prod_same (A0 : FVec Ideal Cert.ReferenceIdeal.S100000x128 .f32) (A2 : FVec Ideal Cert.ReferenceIdeal.S128x128 .f32) :
    Host.dotGeneral Cert.ReferenceIdeal.dot_S100000x128_S128x128_S100000x128_1_0_0_1_n_n none A0 A2
      = Cert.KernelIdeal.Xw.matProd (truncf .bf16 A0 Cert.KernelIdeal.Gen.bitsLt_bf16_f32) (truncf .bf16 A2 Cert.KernelIdeal.Gen.bitsLt_bf16_f32) := by
  funext i
  simp only [Host.dotGeneral]
  rw [Ideal.dotGeneral_apply, ← Equiv.sum_comp (ValueIdx.contrEquiv1 Cert.ReferenceIdeal.dot_S100000x128_S128x128_S100000x128_1_0_0_1_n_n 128 rfl rfl).symm]
  show _ = ∑ k : Fin 128, A0 (Cert.KernelIdeal.Xw.inRow i k) * A2 (Cert.KernelIdeal.Xw.inCol i k)
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((ValueIdx.contrEquiv1 Cert.ReferenceIdeal.dot_S100000x128_S128x128_S100000x128_1_0_0_1_n_n 128 rfl rfl).symm k) = Cert.KernelIdeal.Xw.inRow i k := funext fun a => Fin.ext (by
    match a with
    | ⟨0, _⟩ => exact lhs_0 _ _
    | ⟨1, _⟩ => exact (lhs_1 _ _).trans hk)
  have er : Cert.ReferenceIdeal.dot_S100000x128_S128x128_S100000x128_1_0_0_1_n_n.rhsIdx i ((ValueIdx.contrEquiv1 Cert.ReferenceIdeal.dot_S100000x128_S128x128_S100000x128_1_0_0_1_n_n 128 rfl rfl).symm k) = Cert.KernelIdeal.Xw.inCol i k := funext fun a => Fin.ext (by
    match a with
    | ⟨0, _⟩ => exact (rhs_0 _ _).trans hk
    | ⟨1, _⟩ => exact rhs_1 _ _)
  rw [el, er]

/-! ## The bias and the maximum with zero -/

/-- The bias vector's entry of column `i 1`. -/
abbrev colOf (i : Cert.ReferenceIdeal.S100000x128.Idx) : Cert.ReferenceIdeal.S128.Idx := ValueIdx.ix1 ⟨(i 1).val, (i 1).isLt⟩

/-- Whole-array bias add and maximum with zero, the bias broadcast down the rows, is the kernel's row-block form. -/
theorem outer_same {F : FTy → Type} [FloatOps F] (agg : FVec F Cert.ReferenceIdeal.S100000x128 .f32) (b : FVec F Cert.ReferenceIdeal.S128 .f32) :
    maximumf (addf agg (broadcastInDim Cert.ReferenceIdeal.S100000x128 ![0, 1] Cert.ReferenceIdeal.Gen.bcast_S1x128_S100000x128_0_1 (broadcastInDim Cert.ReferenceIdeal.S1x128 ![1] Cert.ReferenceIdeal.Gen.bcast_S128_S1x128_1 b)))
        (broadcastInDim Cert.ReferenceIdeal.S100000x128 ![] Cert.ReferenceIdeal.Gen.bcast_S_S100000x128 (constant (F := F) Cert.ReferenceIdeal.S_ .f32 0x00000000#32))
      = Cert.KernelIdeal.BiasRelu.biasRelu agg (Cert.KernelIdeal.Chain.rowOf b) := by
  funext i
  show FloatOps.maximumf (FloatOps.addf (agg i) (broadcastInDim Cert.ReferenceIdeal.S100000x128 ![0, 1] Cert.ReferenceIdeal.Gen.bcast_S1x128_S100000x128_0_1 (broadcastInDim Cert.ReferenceIdeal.S1x128 ![1] Cert.ReferenceIdeal.Gen.bcast_S128_S1x128_1 b) i))
      (broadcastInDim Cert.ReferenceIdeal.S100000x128 ![] Cert.ReferenceIdeal.Gen.bcast_S_S100000x128 (constant (F := F) Cert.ReferenceIdeal.S_ .f32 0x00000000#32) i)
    = FloatOps.maximumf (FloatOps.addf (agg i) (shapeCast Cert.KernelIdeal.S1x128 b Cert.KernelIdeal.Gen.shapeCasts_S128_S1x128 (Cert.KernelIdeal.BiasRelu.underCol i))) (Scalar.ofBits .f32 0x00000000#32)
  rw [broadcastInDim_apply ![0, 1] Cert.ReferenceIdeal.Gen.bcast_S1x128_S100000x128_0_1 _ i (Cert.KernelIdeal.BiasRelu.underCol i) (fun a => match a with
      | ⟨0, _⟩ => by show (0 : Nat) = if (1 : Nat) = 1 then 0 else _; rw [if_pos rfl]
      | ⟨1, _⟩ => by show (i 1).val = if (128 : Nat) = 1 then 0 else (i 1).val; rw [if_neg (by decide)]),
    broadcastInDim_apply ![1] Cert.ReferenceIdeal.Gen.bcast_S128_S1x128_1 b (Cert.KernelIdeal.BiasRelu.underCol i) (colOf i) (fun a => match a with
      | ⟨0, _⟩ => by show (i 1).val = if (128 : Nat) = 1 then 0 else (i 1).val; rw [if_neg (by decide)]),
    shapeCast_apply b Cert.KernelIdeal.Gen.shapeCasts_S128_S1x128 (Cert.KernelIdeal.BiasRelu.underCol i) (colOf i)
      (by rewrite [Shape.rowMajor_val_one, Shape.rowMajor_val_two]; show (i 1).val = 0 * 128 + (i 1).val; omega)]
  rfl

/-! ## The kernel program's result, traced back to the launch memory -/

variable (m : (ℓ : Loc Cert.KernelIdeal.nD Cert.KernelIdeal.τ Cert.KernelIdeal.sig) → Buf (Elt Ideal) ℓ) (ρ : Dev Cert.KernelIdeal.nD → PrngReg)

open Cert.KernelIdeal Cert.KernelIdeal.Gen in
set_option maxHeartbeats 2000000 in
/-- What the run leaves in the result array: the second region's function of the aggregated features and the bias row,
    the aggregation taken of the first region's product, every argument read at the launch memory. -/
theorem kernel_value (c : Dev Cert.KernelIdeal.nD) :
    W6 m ρ c (Proc.devRef .tc main_v47)
      = BiasRelu.biasRelu (F := Ideal)
          (Chain.aggOf (F := Ideal) (Xw.matProd (truncf .bf16 (m ((c : Thread nD τ).loc main_arg0)) bitsLt_bf16_f32) (truncf .bf16 (m ((c : Thread nD τ).loc main_arg2)) bitsLt_bf16_f32))
            (Chain.srcOf (F := Ideal) (m ((c : Thread nD τ).loc main_arg1))) (Chain.dstOf (F := Ideal) (m ((c : Thread nD τ).loc main_arg1)))
            (Chain.normOf (F := Ideal) (Chain.srcOf (F := Ideal) (m ((c : Thread nD τ).loc main_arg1))) (Chain.dstOf (F := Ideal) (m ((c : Thread nD τ).loc main_arg1)))))
          (Chain.rowOf (F := Ideal) (m ((c : Thread nD τ).loc main_arg3))) := by
  have r1 : W6 m ρ c (Proc.devRef .tc main_v47) = (dat1 (V5 m ρ) c).arrAt 2 cfg1.N := W6_arr m ρ c 2
  have r0 : W4 m ρ c (Proc.devRef .tc main_v32) = (dat0 (V3 m ρ) c).arrAt 2 cfg0.N := W4_arr m ρ c 2
  have k3 : W4 m ρ c (Proc.devRef .tc main_v3) = W3 m ρ c (Proc.devRef .tc main_v3) := W4_of_ne m ρ c main_v3 (by decide)
  have k6 : W4 m ρ c (Proc.devRef .tc main_v6) = W3 m ρ c (Proc.devRef .tc main_v6) := W4_of_ne m ρ c main_v6 (by decide)
  have k29 : W4 m ρ c (Proc.devRef .tc main_v29) = W3 m ρ c (Proc.devRef .tc main_v29) := W4_of_ne m ρ c main_v29 (by decide)
  have kb : W4 m ρ c (Proc.devRef .tc main_arg3) = W3 m ρ c (Proc.devRef .tc main_arg3) := W4_of_ne m ρ c main_arg3 (by decide)
  have f1 : (dat1 (V5 m ρ) c).arrAt 2 cfg1.N = BiasRelu.biasRelu (W5 m ρ c (Proc.devRef .tc main_v45)) (W5 m ρ c (Proc.devRef .tc main_v46)) :=
    BiasRelu.final (V5 m ρ) c
  have f0 : (dat0 (V3 m ρ) c).arrAt 2 cfg0.N = Xw.matProd (W3 m ρ c (Proc.devRef .tc main_v30)) (W3 m ρ c (Proc.devRef .tc main_v31)) :=
    Xw.final (V3 m ρ) c
  rw [r1, f1, Chain.entry1_agg, Chain.entry1_bias, r0, f0, k3, k6, k29, kb,
    Chain.entry0_left, Chain.entry0_weight, Chain.entry0_src, Chain.entry0_dst, Chain.entry0_norm, Chain.entry0_bias]

/-- The reference's result term, over a memory that agrees with the kernel program's on the four arguments, is what the
    kernel program's run leaves in its result array. -/
theorem result_eq (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_main_v47 m' c = Cert.KernelIdeal.Gen.W6 m ρ c (Proc.devRef .tc Cert.KernelIdeal.main_v47) := by
  rw [Cert.ReferenceIdeal.Term.res_eq, h0, h1, h2, h3, prod_same, agg_same, outer_same]
  exact (kernel_value m ρ c).symm

end Cert.Proof.Bridge

end
-- ==== Proof.lean ====
/-
  The certificate of a graph-convolution layer: `relu (Â · (x · W) + b)`, with `Â` the edge list's adjacency with self
  loops, symmetrically normalised by the inverse square roots of the in-degrees.
  The kernel program forms `x · W` in a first region (row blocks of 10000 rows against the whole weight), gathers,
  scales and scatter-adds on the host, and adds the bias and takes the maximum with zero in a second region (the
  same row blocks); the reference does all of it on the host. Over the extended reals the two results are equal
  entry by entry: the first region's blocks tile the product the reference forms at once (a change of float format
  is the identity there, and a matrix product into a zero accumulator is the plain sum); the host operations in
  between are the same functions of equal arrays; and the second region's blocks tile `max (agg + b) 0`.
  The three frames: the two kernel programs' are the generated ones; the reference's is its run with the result dropped.
  No rewrite was applied when the kernel was idealized, so that claim is trivial.
-/
import proofs.«138980_j82824149336364_1_alg».proof.Defs
import proofs.«138980_j82824149336364_1_alg».proof.Proof.Gen.Kernel
import proofs.«138980_j82824149336364_1_alg».proof.Proof.Gen.Kernel.Skeleton
import proofs.«138980_j82824149336364_1_alg».proof.Proof.Gen.Kernel.Launch
import proofs.«138980_j82824149336364_1_alg».proof.Proof.Gen.Kernel.Points
import proofs.«138980_j82824149336364_1_alg».proof.Proof.Gen.Kernel.Frame
import proofs.«138980_j82824149336364_1_alg».proof.Proof.Gen.KernelIdeal
import proofs.«138980_j82824149336364_1_alg».proof.Proof.Gen.KernelIdeal.Skeleton
import proofs.«138980_j82824149336364_1_alg».proof.Proof.Gen.KernelIdeal.Launch
import proofs.«138980_j82824149336364_1_alg».proof.Proof.Gen.KernelIdeal.Points
import proofs.«138980_j82824149336364_1_alg».proof.Proof.Gen.KernelIdeal.Frame
import proofs.«138980_j82824149336364_1_alg».proof.Proof.Gen.ReferenceIdeal
import proofs.«138980_j82824149336364_1_alg».proof.Proof.Gen.Pre_finite_inputs
import proofs.«138980_j82824149336364_1_alg».proof.Proof.RefRun
import proofs.«138980_j82824149336364_1_alg».proof.Proof.KernelRun
import proofs.«138980_j82824149336364_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs run, and end with the same result array: the kernel program's is what its second region leaves, the
    reference's is its composed term, and the two are one function of the arguments the memories agree on. -/
theorem algebraic : Cert.algebraic_KernelIdeal_ReferenceIdeal := by
  intro m ρ m' ρ' _ hagree
  refine ⟨fun c => Cert.KernelIdeal.Gen.W6 m ρ c (Proc.devRef .tc Cert.KernelIdeal.main_v47), Cert.KernelIdeal.Named.run_named (F := Ideal) m ρ, ?_⟩
  refine (θ_run Cert.ReferenceIdeal.defs _ _).mono (fun _ h c => ⟨(h c).1.trans ?_, (h c).2⟩)
    (Cert.ReferenceIdeal.Value.run (F := Ideal) m' ρ')
  exact Cert.Proof.Bridge.result_eq m ρ m' c (hagree c).1 (hagree c).2.1 (hagree c).2.2.1 (hagree c).2.2.2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
